-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x50000x64 : Shape := ⟨3, ![4, 50000, 64]⟩
abbrev S850000 : Shape := ⟨1, ![850000]⟩
abbrev S64x64 : Shape := ⟨2, ![64, 64]⟩
abbrev S64 : Shape := ⟨1, ![64]⟩
abbrev S_ : Shape := ⟨0, ![]⟩

class Facts : Prop where
  bcast_S_S4x50000x64 : S_.BroadcastsInDim S4x50000x64 (![] : Fin 0 → Fin S4x50000x64.rank)
  reducesTo_S4x50000x64_S_d0_1_2 : S4x50000x64.ReducesTo [0, 1, 2] S_
  h_S_ : 0 < S_.numel
  bcast_S_S850000 : S_.BroadcastsInDim S850000 (![] : Fin 0 → Fin S850000.rank)
  reducesTo_S850000_S_d0 : S850000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4x50000x64 .f32) (main_arg1 : FVec F S850000 .f32) (main_arg2 : FVec F S64x64 .f32) (main_arg3 : FVec F S64 .f32) (main_arg4 : IVec S850000 32) (main_arg5 : IVec S850000 32) : IVec S_ 1 :=
  let main_v0 : FVec F S4x50000x64 .f32 := Host.absf main_arg0
  let main_cst : FVec F S_ .f32 := constant S_ .f32 0x7F800000#32
  let main_v1 : FVec F S4x50000x64 .f32 := broadcastInDim S4x50000x64 ![] bcast_S_S4x50000x64 main_cst
  let main_v2 : IVec S4x50000x64 1 := cmpf .olt main_v0 main_v1
  let main_c : IVec S_ 1 := constantI S_ 1 1#1
  let main_v3 : IVec S_ 1 := (fun x v => Host.reduce IntOp.andi x v reducesTo_S4x50000x64_S_d0_1_2 h_S_) main_v2 main_c
  let main_v4 : FVec F S850000 .f32 := Host.absf main_arg1
  let main_cst_0 : FVec F S_ .f32 := constant S_ .f32 0x7F800000#32
  let main_v5 : FVec F S850000 .f32 := broadcastInDim S850000 ![] bcast_S_S850000 main_cst_0
  let main_v6 : IVec S850000 1 := cmpf .olt main_v4 main_v5
  let main_c_1 : IVec S_ 1 := constantI S_ 1 1#1
  let main_v7 : IVec S_ 1 := (fun x v => Host.reduce IntOp.andi x v reducesTo_S850000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4x50000x64 : Shape := ⟨3, ![4, 50000, 64]⟩
abbrev S850000 : Shape := ⟨1, ![850000]⟩
abbrev S64x64 : Shape := ⟨2, ![64, 64]⟩
abbrev S64 : Shape := ⟨1, ![64]⟩
abbrev S_ : Shape := ⟨0, ![]⟩
abbrev S850000x1 : Shape := ⟨2, ![850000, 1]⟩
abbrev S4x850000x64 : Shape := ⟨3, ![4, 850000, 64]⟩
abbrev S1x850000x1 : Shape := ⟨3, ![1, 850000, 1]⟩
abbrev S850000x4x64 : Shape := ⟨3, ![850000, 4, 64]⟩
abbrev S50000x4x64 : Shape := ⟨3, ![50000, 4, 64]⟩
abbrev S1x10000x64 : Shape := ⟨3, ![1, 10000, 64]⟩
abbrev S10000x64 : Shape := ⟨2, ![10000, 64]⟩
abbrev S1x64 : Shape := ⟨2, ![1, 64]⟩

abbrev nBuf : Space → Nat
  | .hbm => 25
  | .vmem => 6
  | .smem => 0
  | _ => 0

abbrev bufTy : (tb : Table) → Fin (tcTables nBuf tb) → BufTy
  | .hbm, ⟨0, _⟩ => ⟨S4x50000x64, .f32⟩
  | .hbm, ⟨1, _⟩ => ⟨S850000, .f32⟩
  | .hbm, ⟨2, _⟩ => ⟨S64x64, .f32⟩
  | .hbm, ⟨3, _⟩ => ⟨S64, .f32⟩
  | .hbm, ⟨4, _⟩ => ⟨S850000, .i32⟩
  | .hbm, ⟨5, _⟩ => ⟨S850000, .i32⟩
  | .hbm, ⟨6, _⟩ => ⟨S_, .i32⟩
  | .hbm, ⟨7, _⟩ => ⟨S850000, .i32⟩
  | .hbm, ⟨8, _⟩ => ⟨S850000, .i1⟩
  | .hbm, ⟨9, _⟩ => ⟨S_, .i32⟩
  | .hbm, ⟨10, _⟩ => ⟨S850000, .i32⟩
  | .hbm, ⟨11, _⟩ => ⟨S850000, .i32⟩
  | .hbm, ⟨12, _⟩ => ⟨S850000, .i32⟩
  | .hbm, ⟨13, _⟩ => ⟨S850000x1, .i32⟩
  | .hbm, ⟨14, _⟩ => ⟨S4x850000x64, .f32⟩
  | .hbm, ⟨15, _⟩ => ⟨S1x850000x1, .f32⟩
  | .hbm, ⟨16, _⟩ => ⟨S4x850000x64, .f32⟩
  | .hbm, ⟨17, _⟩ => ⟨S4x850000x64, .f32⟩
  | .hbm, ⟨18, _⟩ => ⟨S850000x4x64, .f32⟩
  | .hbm, ⟨19, _⟩ => ⟨S_, .f32⟩
  | .hbm, ⟨20, _⟩ => ⟨S50000x4x64, .f32⟩
  | .hbm, ⟨21, _⟩ => ⟨S850000x1, .i32⟩
  | .hbm, ⟨22, _⟩ => ⟨S50000x4x64, .f32⟩
  | .hbm, ⟨23, _⟩ => ⟨S4x50000x64, .f32⟩
  | .hbm, ⟨24, _⟩ => ⟨S4x50000x64, .f32⟩
  | .local _ .vmem, ⟨0, _⟩ => ⟨S1x10000x64, .f32⟩
  | .local _ .vmem, ⟨1, _⟩ => ⟨S1x10000x64, .f32⟩
  | .local _ .vmem, ⟨2, _⟩ => ⟨S64x64, .f32⟩
  | .local _ .vmem, ⟨3, _⟩ => ⟨S64, .f32⟩
  | .local _ .vmem, ⟨4, _⟩ => ⟨S1x10000x64, .f32⟩
  | .local _ .vmem, ⟨5, _⟩ => ⟨S1x10000x64, .f32⟩
  | _, _ => ⟨S4x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S850000 : S_.BroadcastsInDim S850000 (![] : Fin 0 → Fin S850000.rank)
  bcast_S850000_S850000x1_0 : S850000.BroadcastsInDim S850000x1 (![0] : Fin 1 → Fin S850000x1.rank)
  bcast_S850000_S1x850000x1_1 : S850000.BroadcastsInDim S1x850000x1 (![1] : Fin 1 → Fin S1x850000x1.rank)
  bcast_S1x850000x1_S4x850000x64_0_1_2 : S1x850000x1.BroadcastsInDim S4x850000x64 (![0, 1, 2] : Fin 3 → Fin S4x850000x64.rank)
  transposes_S4x850000x64_S850000x4x64_1_0_2 : S4x850000x64.Transposes [1, 0, 2] S850000x4x64
  bcast_S_S50000x4x64 : S_.BroadcastsInDim S50000x4x64 (![] : Fin 0 → Fin S50000x4x64.rank)
  transposes_S50000x4x64_S4x50000x64_1_0_2 : S50000x4x64.Transposes [1, 0, 2] S4x50000x64
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  shapeCasts_S10000x64_S1x10000x64 : S10000x64.ShapeCasts S1x10000x64
  gather_S4x50000x64_S850000x1_S4x850000x64_02_1_n_n_1_1_4164_wf : GatherDims.WF S4x50000x64 S850000x1 S4x850000x64 [0, 2] [1] [] [1] [] 1 ![4, 1, 64]
  scatter_S50000x4x64_S850000x1_S850000x4x64_12_0_0_1_wf : ScatterDims.WF S50000x4x64 S850000x1 S850000x4x64 [1, 2] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x64.size a ≤ S4x50000x64.size a
  hwx0_0 : ∀ i : grid0.Coords, EltTy.bits .f32 = 32 ∨ (Rect.block (s := S4x50000x64) S1x10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10000x64.size a ≤ S4x50000x64.size a
  hwx0_3 : ∀ i : grid0.Coords, EltTy.bits .f32 = 32 ∨ (Rect.block (s := S4x50000x64) S1x10000x64.size (cc0_transform_3 i) (hinb0_3 i)).WholeWords (EltTy.packing .f32)

variable [Facts₀]

def gather_S4x50000x64_S850000x1_S4x850000x64_02_1_n_n_1_1_4164 : GatherDims S4x50000x64 S850000x1 S4x850000x64 where
  offsetDims := [0, 2]
  collapsedSliceDims := [1]
  operandBatchingDims := []
  startIndicesBatchingDims := []
  startIndexMap := [1]
  indexVectorDim := 1
  sliceSizes := ![4, 1, 64]
  wf := gather_S4x50000x64_S850000x1_S4x850000x64_02_1_n_n_1_1_4164_wf
def scatter_S50000x4x64_S850000x1_S850000x4x64_12_0_0_1 : ScatterDims S50000x4x64 S850000x1 S850000x4x64 where
  updateWindowDims := [1, 2]
  insertedWindowDims := [0]
  scatterDimsToOperandDims := [0]
  indexVectorDim := 1
  wf := scatter_S50000x4x64_S850000x1_S850000x4x64_12_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v14) S1x10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x50000x64 : Shape := ⟨3, ![4, 50000, 64]⟩
abbrev S850000 : Shape := ⟨1, ![850000]⟩
abbrev S64x64 : Shape := ⟨2, ![64, 64]⟩
abbrev S64 : Shape := ⟨1, ![64]⟩
abbrev S_ : Shape := ⟨0, ![]⟩
abbrev S850000x1 : Shape := ⟨2, ![850000, 1]⟩
abbrev S4x850000x64 : Shape := ⟨3, ![4, 850000, 64]⟩
abbrev S1x850000x1 : Shape := ⟨3, ![1, 850000, 1]⟩
abbrev S850000x4x64 : Shape := ⟨3, ![850000, 4, 64]⟩
abbrev S50000x4x64 : Shape := ⟨3, ![50000, 4, 64]⟩
abbrev S1x1x64 : Shape := ⟨3, ![1, 1, 64]⟩

abbrev nBuf : Space → Nat
  | .hbm => 43
  | .vmem => 0
  | .smem => 0
  | _ => 0

abbrev bufTy : (tb : Table) → Fin (tcTables nBuf tb) → BufTy
  | .hbm, ⟨0, _⟩ => ⟨S4x50000x64, .f32⟩
  | .hbm, ⟨1, _⟩ => ⟨S850000, .f32⟩
  | .hbm, ⟨2, _⟩ => ⟨S64x64, .f32⟩
  | .hbm, ⟨3, _⟩ => ⟨S64, .f32⟩
  | .hbm, ⟨4, _⟩ => ⟨S850000, .i32⟩
  | .hbm, ⟨5, _⟩ => ⟨S850000, .i32⟩
  | .hbm, ⟨6, _⟩ => ⟨S_, .i32⟩
  | .hbm, ⟨7, _⟩ => ⟨S850000, .i32⟩
  | .hbm, ⟨8, _⟩ => ⟨S850000, .i1⟩
  | .hbm, ⟨9, _⟩ => ⟨S_, .i32⟩
  | .hbm, ⟨10, _⟩ => ⟨S850000, .i32⟩
  | .hbm, ⟨11, _⟩ => ⟨S850000, .i32⟩
  | .hbm, ⟨12, _⟩ => ⟨S850000, .i32⟩
  | .hbm, ⟨13, _⟩ => ⟨S850000x1, .i32⟩
  | .hbm, ⟨14, _⟩ => ⟨S4x850000x64, .f32⟩
  | .hbm, ⟨15, _⟩ => ⟨S1x850000x1, .f32⟩
  | .hbm, ⟨16, _⟩ => ⟨S4x850000x64, .f32⟩
  | .hbm, ⟨17, _⟩ => ⟨S4x850000x64, .f32⟩
  | .hbm, ⟨18, _⟩ => ⟨S850000x4x64, .f32⟩
  | .hbm, ⟨19, _⟩ => ⟨S_, .f32⟩
  | .hbm, ⟨20, _⟩ => ⟨S50000x4x64, .f32⟩
  | .hbm, ⟨21, _⟩ => ⟨S850000x1, .i32⟩
  | .hbm, ⟨22, _⟩ => ⟨S50000x4x64, .f32⟩
  | .hbm, ⟨23, _⟩ => ⟨S4x50000x64, .f32⟩
  | .hbm, ⟨24, _⟩ => ⟨S4x50000x64, .f32⟩
  | .hbm, ⟨25, _⟩ => ⟨S1x1x64, .f32⟩
  | .hbm, ⟨26, _⟩ => ⟨S4x50000x64, .f32⟩
  | .hbm, ⟨27, _⟩ => ⟨S4x50000x64, .f32⟩
  | .hbm, ⟨28, _⟩ => ⟨S_, .f32⟩
  | .hbm, ⟨29, _⟩ => ⟨S4x50000x64, .f32⟩
  | .hbm, ⟨30, _⟩ => ⟨S4x50000x64, .i1⟩
  | .hbm, ⟨31, _⟩ => ⟨S_, .f32⟩
  | .hbm, ⟨32, _⟩ => ⟨S4x50000x64, .f32⟩
  | .hbm, ⟨33, _⟩ => ⟨S4x50000x64, .i1⟩
  | .hbm, ⟨34, _⟩ => ⟨S_, .f32⟩
  | .hbm, ⟨35, _⟩ => ⟨S_, .f32⟩
  | .hbm, ⟨36, _⟩ => ⟨S4x50000x64, .f32⟩
  | .hbm, ⟨37, _⟩ => ⟨S4x50000x64, .f32⟩
  | .hbm, ⟨38, _⟩ => ⟨S4x50000x64, .f32⟩
  | .hbm, ⟨39, _⟩ => ⟨S_, .f32⟩
  | .hbm, ⟨40, _⟩ => ⟨S4x50000x64, .f32⟩
  | .hbm, ⟨41, _⟩ => ⟨S4x50000x64, .f32⟩
  | .hbm, ⟨42, _⟩ => ⟨S4x50000x64, .f32⟩
  | _, _ => ⟨S4x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_cst_1 : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_v4 : Ref sig .tc := ⟨.hbm, 37, rfl⟩
abbrev main_call0_v5 : Ref sig .tc := ⟨.hbm, 38, rfl⟩
abbrev main_call0_cst_2 : Ref sig .tc := ⟨.hbm, 39, rfl⟩
abbrev main_call0_v6 : Ref sig .tc := ⟨.hbm, 40, rfl⟩
abbrev main_call0_v7 : Ref sig .tc := ⟨.hbm, 41, rfl⟩
abbrev main_v19 : Ref sig .tc := ⟨.hbm, 42, rfl⟩

abbrev nD : Nat := 1
abbrev τ : Topo := Topo.v7x

variable {F : FTy → Type} [FloatOps F]

class Facts₀ : Prop where
  bcast_S_S850000 : S_.BroadcastsInDim S850000 (![] : Fin 0 → Fin S850000.rank)
  bcast_S850000_S850000x1_0 : S850000.BroadcastsInDim S850000x1 (![0] : Fin 1 → Fin S850000x1.rank)
  bcast_S850000_S1x850000x1_1 : S850000.BroadcastsInDim S1x850000x1 (![1] : Fin 1 → Fin S1x850000x1.rank)
  bcast_S1x850000x1_S4x850000x64_0_1_2 : S1x850000x1.BroadcastsInDim S4x850000x64 (![0, 1, 2] : Fin 3 → Fin S4x850000x64.rank)
  transposes_S4x850000x64_S850000x4x64_1_0_2 : S4x850000x64.Transposes [1, 0, 2] S850000x4x64
  bcast_S_S50000x4x64 : S_.BroadcastsInDim S50000x4x64 (![] : Fin 0 → Fin S50000x4x64.rank)
  transposes_S50000x4x64_S4x50000x64_1_0_2 : S50000x4x64.Transposes [1, 0, 2] S4x50000x64
  bcast_S64_S1x1x64_2 : S64.BroadcastsInDim S1x1x64 (![2] : Fin 1 → Fin S1x1x64.rank)
  bcast_S1x1x64_S4x50000x64_0_1_2 : S1x1x64.BroadcastsInDim S4x50000x64 (![0, 1, 2] : Fin 3 → Fin S4x50000x64.rank)
  bcast_S_S4x50000x64 : S_.BroadcastsInDim S4x50000x64 (![] : Fin 0 → Fin S4x50000x64.rank)
  gather_S4x50000x64_S850000x1_S4x850000x64_02_1_n_n_1_1_4164_wf : GatherDims.WF S4x50000x64 S850000x1 S4x850000x64 [0, 2] [1] [] [1] [] 1 ![4, 1, 64]
  scatter_S50000x4x64_S850000x1_S850000x4x64_12_0_0_1_wf : ScatterDims.WF S50000x4x64 S850000x1 S850000x4x64 [1, 2] [0] [0] 1
  dot_S4x50000x64_S64x64_S4x50000x64_2_0_01_1_n_n_wf : DotDims.WF S4x50000x64 S64x64 S4x50000x64 [2] [0] [0, 1] [1] [] []

variable [Facts₀]

def gather_S4x50000x64_S850000x1_S4x850000x64_02_1_n_n_1_1_4164 : GatherDims S4x50000x64 S850000x1 S4x850000x64 where
  offsetDims := [0, 2]
  collapsedSliceDims := [1]
  operandBatchingDims := []
  startIndicesBatchingDims := []
  startIndexMap := [1]
  indexVectorDim := 1
  sliceSizes := ![4, 1, 64]
  wf := gather_S4x50000x64_S850000x1_S4x850000x64_02_1_n_n_1_1_4164_wf
def scatter_S50000x4x64_S850000x1_S850000x4x64_12_0_0_1 : ScatterDims S50000x4x64 S850000x1 S850000x4x64 where
  updateWindowDims := [1, 2]
  insertedWindowDims := [0]
  scatterDimsToOperandDims := [0]
  indexVectorDim := 1
  wf := scatter_S50000x4x64_S850000x1_S850000x4x64_12_0_0_1_wf
def dot_S4x50000x64_S64x64_S4x50000x64_2_0_01_1_n_n : DotDims S4x50000x64 S64x64 S4x50000x64 where
  lhsContracting := [2]
  rhsContracting := [0]
  lhsNonContracting := [0, 1]
  rhsNonContracting := [1]
  lhsBatch := []
  rhsBatch := []
  wf := dot_S4x50000x64_S64x64_S4x50000x64_2_0_01_1_n_n_wf

class Facts : Prop extends Facts₀ where

variable [Facts]
-- ==== Proof.DenseElu.lean ====
/-
  The dense layer both programs end in, as ONE function of three arrays over the extended reals, index by index:
  for an aggregated feature array `a : [4, 50000, 64]`, a weight matrix `w : [64, 64]` and a bias row `β : [64]`,

      G a w β (b, n, o) = elu (∑ k < 64, a (b, n, k) · w (k, o) + β o),

  with `elu y = y` above zero and `exp y − 1` elsewhere. The two programs spell the activation differently: one
  subtracts the constant one from `exp y` and selects; the other applies `exp · − 1` to `y` guarded to zero on the
  positive side, multiplies by the constant one and selects by the same comparison. Both are `elu`: on the side the
  comparison sends to `y` the other operand is never read, and on the other side the guard is `y` itself and
  `1 · z = z`. No finiteness is used: every step is a case split on one comparison bit.
-/
import Idealize.ShloMosaic.PureOps.Ideal
import Idealize.ShloMosaic.PureOps.Ideal.Laws
import Idealize.ShloMosaic.Lib.ValueIdx

noncomputable section

open scoped BigOperators

namespace Cert.DenseElu

open Idealize.ShloMosaic Idealize.ShloMosaic.ValueIdx

/-- The binary32 pattern of `1.0` denotes the real number one. -/
theorem one_f32 : Ideal.ofBits .f32 0x3F800000#32 = 1 := by
  simp [Ideal.ofBits, Ideal.ieee, -EReal.coe_mul]; norm_num

/-- ELU on the extended reals: the argument where it is above zero, `exp y − 1` elsewhere (so `−1` at `−∞`). -/
def elu (y : EReal) : EReal :=
  Scalar.select (Ideal.cmp .ogt y 0) y (Ideal.exp y - 1)

/-- Whatever the comparison bit `c`: selecting `y` against `1 · (exp g − 1)`, where `g` is `y` guarded to some `z`
    on the side that selects `y`, is selecting `y` against `exp y − 1`. -/
theorem select_guarded (c : BitVec 1) (y z : EReal) :
    Scalar.select c y (1 * (Ideal.exp (Scalar.select c z y) - 1)) = Scalar.select c y (Ideal.exp y - 1) := by
  by_cases h : c = 1#1
  · subst h; rw [select_one, select_one]
  · have h0 := eq_zero_of_ne_one h
    subst h0; rw [select_zero, select_zero, select_zero, one_mul]

/-- The activation spelt with a subtraction: compare with the zero pattern, subtract the pattern of `1.0` from `exp y`. -/
theorem elu_of_sub (y : EReal) :
    Scalar.select (FloatOps.cmpf (F := Ideal) (φ := .f32) .ogt y (Scalar.ofBits .f32 0x00000000#32)) y
      (FloatOps.subf (F := Ideal) (φ := .f32) (FloatOps.exp y) (Scalar.ofBits .f32 0x3F800000#32)) = elu y := by
  show Scalar.select (Ideal.cmp .ogt y (Ideal.ofBits .f32 0x00000000#32)) y (Ideal.exp y - Ideal.ofBits .f32 0x3F800000#32) = _
  rw [Ideal.ofBits_zero_f32, one_f32]; rfl

/-- The activation spelt with `exp · − 1` of the guarded argument, times the pattern of `1.0`. -/
theorem elu_of_expm1 (y : EReal) :
    Scalar.select (FloatOps.cmpf (F := Ideal) (φ := .f32) .ogt y (Ideal.ofBits .f32 0x00000000#32)) y
      (Ideal.ofBits .f32 0x3F800000#32 * FloatOps.hostUnary (F := Ideal) (φ := .f32) .expm1
        (Scalar.select (FloatOps.cmpf (F := Ideal) (φ := .f32) .ogt y (Ideal.ofBits .f32 0x00000000#32)) (Ideal.ofBits .f32 0x00000000#32) y)) = elu y := by
  show Scalar.select (Ideal.cmp .ogt y (Ideal.ofBits .f32 0x00000000#32)) y
      (Ideal.ofBits .f32 0x3F800000#32 * (Ideal.exp (Scalar.select (Ideal.cmp .ogt y (Ideal.ofBits .f32 0x00000000#32)) (Ideal.ofBits .f32 0x00000000#32) y) - 1)) = _
  rw [Ideal.ofBits_zero_f32, one_f32, select_guarded]; rfl

/-- The layer: a row of `a` against a column of `w`, plus the bias entry of that column, through `elu`. -/
def G (a : (⟨3, ![4, 50000, 64]⟩ : Shape).Idx → EReal) (w : (⟨2, ![64, 64]⟩ : Shape).Idx → EReal)
    (β : (⟨1, ![64]⟩ : Shape).Idx → EReal) : (⟨3, ![4, 50000, 64]⟩ : Shape).Idx → EReal :=
  fun i => elu ((∑ k : Fin 64, a (ix3 (i 0) (i 1) k) * w (ix2 k (i 2))) + β (ix1 (i 2)))

/-- `G` of equal arrays. -/
theorem G_congr {a a' : (⟨3, ![4, 50000, 64]⟩ : Shape).Idx → EReal} {w w' : (⟨2, ![64, 64]⟩ : Shape).Idx → EReal}
    {β β' : (⟨1, ![64]⟩ : Shape).Idx → EReal} (ha : a = a') (hw : w = w') (hβ : β = β') : G a w β = G a' w' β' := by
  subst ha hw hβ; rfl

end Cert.DenseElu

end
-- ==== Proof.BlockPayload.lean ====
/-
  What the kernel body stores for one block, read at one entry. A block is one batch slice of ten thousand rows of
  the aggregated features, `x : [1, 10000, 64]`; the body drops the unit axis, multiplies the rows by the whole
  weight matrix `w : [64, 64]` into a zero accumulator (the narrowing of both operands to bfloat16 is the identity
  on the extended reals), adds the bias row `β : [64]` broadcast down the rows, applies the activation and puts the
  unit axis back. So the stored entry `(0, r, o)` is

      elu (∑ k < 64, x (0, r, k) · w (k, o) + β o).

  The product's contraction runs over one axis: its index set is identified with `Fin 64`, and the operand indices
  at output entry `(r, o)` and contraction position `k` are `(r, k)` and `(k, o)`, axis by axis.
-/
import proofs.«158166_j39479339384913_1_alg».proof.Proof.Gen.KernelIdeal.Skeleton
import proofs.«158166_j39479339384913_1_alg».proof.Proof.DenseElu
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.DenseElu

/-! ## The product's operand indices, axis by axis -/

/-- The left operand's row is the output entry's row. -/
theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- The left operand's column is the contraction position. -/
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

/-- The right operand's row is the contraction position. -/
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

/-- The right operand's column is the output entry's column. -/
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- Rows times the matrix into a zero accumulator, at entry `(r, o)`: the sum over the shared axis. -/
theorem matmul_entry {φ₁ φ₂ : FTy} (A : FVec Ideal S10000x64 φ₁) (W : FVec Ideal S64x64 φ₂) (r : Fin 10000) (o : Fin 64) :
    matmul dot_S10000x64_S64x64_S10000x64_1_0_0_1_n_n none A W (constant S10000x64 .f32 0x00000000#32) (ix2 r o)
      = ∑ k : Fin 64, A (ix2 r k) * W (ix2 k o) := by
  show FloatOps.matmul dot_S10000x64_S64x64_S10000x64_1_0_0_1_n_n none A W (constant S10000x64 .f32 0x00000000#32) (ix2 r o) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r o) ((contrEquiv1 dot_S10000x64_S64x64_S10000x64_1_0_0_1_n_n 64 rfl rfl).symm k) = ix2 r k :=
    funext fun a => Fin.ext (by
      match a with
      | ⟨0, _⟩ => exact lhs_axis0 _ _
      | ⟨1, _⟩ => exact (lhs_axis1 _ _).trans hk)
  have er : dot_S10000x64_S64x64_S10000x64_1_0_0_1_n_n.rhsIdx (ix2 r o) ((contrEquiv1 dot_S10000x64_S64x64_S10000x64_1_0_0_1_n_n 64 rfl rfl).symm k) = ix2 k o :=
    funext fun a => Fin.ext (by
      match a with
      | ⟨0, _⟩ => exact (rhs_axis0 _ _).trans hk
      | ⟨1, _⟩ => exact rhs_axis1 _ _)
  rw [el, er]

/-! ## The body's payload as two steps: the affine part, then the activation -/

variable {F : FTy → Type} [FloatOps F]

/-- Rows times weights plus the broadcast bias, for one block. -/
def affine (x : Vec F S1x10000x64 .f32) (w : Vec F S64x64 .f32) (β : Vec F S64 .f32) : FVec F S10000x64 .f32 :=
  addf (matmul dot_S10000x64_S64x64_S10000x64_1_0_0_1_n_n none (truncf .bf16 (shapeCast S10000x64 x shapeCasts_S1x10000x64_S10000x64) bitsLt_bf16_f32)
      (truncf .bf16 w bitsLt_bf16_f32) (constant S10000x64 .f32 0x00000000#32))
    (broadcastTo S10000x64 (shapeCast S1x64 β shapeCasts_S64_S1x64) broadcasts_S1x64_S10000x64)

/-- The activation as the body spells it: compare with zero, `exp` minus one, select. -/
def activate (y : FVec F S10000x64 .f32) : FVec F S10000x64 .f32 :=
  select (cmpf .ogt y (broadcast S10000x64 (Scalar.ofBits .f32 0x00000000#32))) y
    (subf (exp y) (broadcast S10000x64 (Scalar.ofBits .f32 0x3F800000#32)))

/-- The stored value is the activation of the affine part with the unit axis put back. -/
theorem pay_eq (x : Vec F S1x10000x64 .f32) (w : Vec F S64x64 .f32) (β : Vec F S64 .f32) :
    k0_pay1 x w β = shapeCast S1x10000x64 (activate (affine x w β)) shapeCasts_S10000x64_S1x10000x64 := rfl

/-! ## Read at an entry, on the extended reals -/

/-- Dropping the block's unit axis: entry `(r, k)` is entry `(0, r, k)`. -/
theorem drop_unit (x : Vec Ideal S1x10000x64 .f32) (r : Fin 10000) (k : Fin 64) :
    shapeCast S10000x64 x shapeCasts_S1x10000x64_S10000x64 (ix2 r k) = x (ix3 (0 : Fin 1) r k) :=
  (shapeCast_dropUnit_apply (n := 2) ![10000, 64] x shapeCasts_S1x10000x64_S10000x64 (ix2 r k)).trans
    (congrArg x (funext fun a => by
      match a with
      | ⟨0, _⟩ => rfl
      | ⟨1, _⟩ => rfl
      | ⟨2, _⟩ => rfl))

/-- The bias row broadcast down the rows: entry `(r, o)` is `β o`. -/
theorem bias_entry (β : Vec Ideal S64 .f32) (r : Fin 10000) (o : Fin 64) :
    broadcastTo S10000x64 (shapeCast S1x64 β shapeCasts_S64_S1x64) broadcasts_S1x64_S10000x64 (ix2 r o) = β (ix1 o) := by
  refine (broadcastTo_apply _ broadcasts_S1x64_S10000x64 (ix2 r o) (ix2 (0 : Fin 1) o) (fun a => by
    match a with
    | ⟨0, _⟩ => rfl
    | ⟨1, _⟩ => rfl)).trans ?_
  exact (shapeCast_addUnit_apply (n := 1) ![64] β shapeCasts_S64_S1x64 (ix2 (0 : Fin 1) o)).trans
    (congrArg β (funext fun a => by
      match a with
      | ⟨0, _⟩ => rfl))

/-- The affine part at entry `(r, o)`. -/
theorem affine_entry (x : Vec Ideal S1x10000x64 .f32) (w : Vec Ideal S64x64 .f32) (β : Vec Ideal S64 .f32)
    (r : Fin 10000) (o : Fin 64) :
    affine x w β (ix2 r o) = (∑ k : Fin 64, x (ix3 (0 : Fin 1) r k) * w (ix2 k o)) + β (ix1 o) := by
  unfold affine
  rw [addf_apply, matmul_entry, bias_entry]
  refine congrArg (· + β (ix1 o)) (Finset.sum_congr rfl fun k _ => ?_)
  rw [truncf_apply, truncf_apply, drop_unit]

/-- Putting the unit axis back: entry `(0, r, o)` is entry `(r, o)`. -/
theorem add_unit (y : FVec Ideal S10000x64 .f32) (r : Fin 10000) (o : Fin 64) :
    shapeCast S1x10000x64 y shapeCasts_S10000x64_S1x10000x64 (ix3 (0 : Fin 1) r o) = y (ix2 r o) :=
  (shapeCast_addUnit_apply (n := 2) ![10000, 64] y shapeCasts_S10000x64_S1x10000x64 (ix3 (0 : Fin 1) r o)).trans
    (congrArg y (show (fun a : Fin 2 => ix3 (0 : Fin 1) r o a.succ) = ix2 r o from funext fun a => by
      match a with
      | ⟨0, _⟩ => rfl
      | ⟨1, _⟩ => rfl))

/-- THE STORED ENTRY `(0, r, o)`: the activation of row `r` against column `o` plus the bias entry. -/
theorem pay_entry (x : Vec Ideal S1x10000x64 .f32) (w : Vec Ideal S64x64 .f32) (β : Vec Ideal S64 .f32)
    (r : Fin 10000) (o : Fin 64) :
    k0_pay1 (F := Ideal) x w β (ix3 (0 : Fin 1) r o)
      = elu ((∑ k : Fin 64, x (ix3 (0 : Fin 1) r k) * w (ix2 k o)) + β (ix1 o)) := by
  rw [pay_eq, add_unit]
  show Scalar.select (FloatOps.cmpf .ogt (affine x w β (ix2 r o)) (Scalar.ofBits .f32 0x00000000#32)) (affine x w β (ix2 r o))
    (FloatOps.subf (FloatOps.exp (affine x w β (ix2 r o))) (Scalar.ofBits .f32 0x3F800000#32)) = _
  rw [affine_entry]
  exact elu_of_sub _

end Cert.KernelIdeal.Block

end
-- ==== Proof.HostAgg.lean ====
/-
  The aggregation the program does on the host before its tiled call, carried as ONE function `agg` of the four
  arrays it reads: the column indices are wrapped (a negative index has the node count added), the feature rows
  they name are gathered, scaled by the edge values, and added into the rows the row indices name; two transposes
  put the batch axis first. The array the tiled call reads as its first operand is `agg` of the launch contents.
  The function is never opened: the reference applies the same chain to the same arrays.
-/
import proofs.«158166_j39479339384913_1_alg».proof.Proof.Gen.KernelIdeal.Frame
import Idealize.ShloMosaic.Lib.StableHlo.Run

noncomputable section

namespace Cert.KernelIdeal.Dense

open Cert.KernelIdeal Cert.KernelIdeal.Gen Idealize.ShloMosaic Idealize.ShloMosaic.TcCoe
open Idealize.SL.Sem Idealize.ShloMosaic.StableHlo

variable {F : FTy → Type} [FloatOps F]

/-- Wrap the column indices, gather, scale by the edge values, scatter-add by the row indices, batch axis first. -/
def agg (x : (⟨S4x50000x64, .f32⟩ : BufTy).Contents (Elt F))
    (vals : (⟨S850000, .f32⟩ : BufTy).Contents (Elt F)) (rows cols : (⟨S850000, .i32⟩ : BufTy).Contents (Elt F)) :
    (⟨S4x50000x64, .f32⟩ : BufTy).Contents (Elt F) :=
  transpose S4x50000x64 [1, 0, 2]
    (Host.scatterAdd scatter_S50000x4x64_S850000x1_S850000x4x64_12_0_0_1
      (broadcastInDim S50000x4x64 ![] bcast_S_S50000x4x64 (constant S_ .f32 0x00000000#32))
      (broadcastInDim S850000x1 ![0] bcast_S850000_S850000x1_0 rows)
      (transpose S850000x4x64 [1, 0, 2]
        (mulf
          (Host.gather gather_S4x50000x64_S850000x1_S4x850000x64_02_1_n_n_1_1_4164 x
            (broadcastInDim S850000x1 ![0] bcast_S850000_S850000x1_0
              (select (cmpi .slt cols (broadcastInDim S850000 ![] bcast_S_S850000 (constantI S_ 32 0#32)))
                (addi cols (broadcastInDim S850000 ![] bcast_S_S850000 (constantI S_ 32 50000#32))) cols)))
          (broadcastInDim S4x850000x64 ![0, 1, 2] bcast_S1x850000x1_S4x850000x64_0_1_2
            (broadcastInDim S1x850000x1 ![1] bcast_S850000_S1x850000x1_1 vals)))
        transposes_S4x850000x64_S850000x4x64_1_0_2))
    transposes_S50000x4x64_S4x50000x64_1_0_2

variable (m : (ℓ : Loc nD τ sig) → Buf (Elt F) ℓ)

/-- The tiled call's first operand, as the call finds it, is `agg` of the launch contents. -/
theorem V_agg (c : Dev nD) :
    (V m c main_v14 : (⟨S4x50000x64, .f32⟩ : BufTy).Contents (Elt F))
      = agg (m ((c : Thread nD τ).loc main_arg0)) (m ((c : Thread nD τ).loc main_arg1))
          (m ((c : Thread nD τ).loc main_arg4)) (m ((c : Thread nD τ).loc main_arg5)) := by
  dsimp only [Gen.V, Gen.hostOps0]
  after_results
  rfl

end Cert.KernelIdeal.Dense

end
-- ==== Proof.KernelValue.lean ====
/-
  The kernel's result array as one function of its arguments, on the extended reals.

  The array the tiled call reads as its first operand is the host aggregation `agg` of the launch contents.

  The tiled call walks a 4 × 5 grid. Point `(b, n)` reads rows `10000·n … 10000·n + 9999` of batch slice `b` of the
  aggregated array, the whole weight matrix and the whole bias row, and writes the same rows of the same slice of
  the result. What it writes at entry `(0, r, o)` of its block is `elu (∑ k, x (0, r, k) · w (k, o) + β o)`
  (the block's payload), and reading each input block where the output block sits turns that into entry
  `(b, 10000·n + r, o)` of `G (aggregated) w β`. The twenty blocks tile the result (row `i` of slice `b` belongs
  to point `(b, i / 10000)`), so after the run the result array IS `G (agg …) w β`.
-/
import proofs.«158166_j39479339384913_1_alg».proof.Proof.Gen.KernelIdeal.Value
import proofs.«158166_j39479339384913_1_alg».proof.Proof.BlockPayload
import proofs.«158166_j39479339384913_1_alg».proof.Proof.HostAgg
import proofs.«158166_j39479339384913_1_alg».proof.Proof.DenseElu
import Idealize.ShloMosaic.Lib.Pipeline.Value
import Idealize.ShloMosaic.Lib.ValueIdx
import Idealize.ShloMosaic.Lib.StableHlo.Run

noncomputable section

open scoped BigOperators

namespace Cert.KernelIdeal.Dense

open Cert.KernelIdeal Cert.KernelIdeal.Gen Cert.KernelIdeal.Value Idealize.ShloMosaic Idealize.ShloMosaic.TcCoe
open Idealize.SL.Sem Idealize.ShloMosaic.ValueIdx Idealize.ShloMosaic.StableHlo Cert.DenseElu
open Idealize.ShloMosaic.Pipeline (Dat)

variable (m : (ℓ : Loc nD τ sig) → Buf (Elt Ideal) ℓ) (ρ : Dev nD → PrngReg)

/-! ## Where the blocks sit -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the rows' block moves with the output's block on the batch and row axes
    and stays at column block zero, as the output's does; the weights and the bias stay at block zero. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_3.index t (2 : Fin 3) = 0
    ∧ win0_1.index t (0 : Fin 2) = 0
    ∧ win0_1.index t (1 : Fin 2) = 0
    ∧ win0_2.index t (0 : Fin 1) = 0 :=
  (by decide +kernel : ∀ t : Fin grid0.N, _)

/-- Every (batch slice, row block) is some point's output block. -/
theorem idx_onto : ∀ (q0 : Fin 4) (q1 : Fin 5), ∃ t : Fin cfg0.N, win0_3.index t = ![q0.val, q1.val, 0] :=
  (by decide +kernel : ∀ (q0 : Fin 4) (q1 : Fin 5), ∃ t : Fin grid0.N, win0_3.index t = ![q0.val, q1.val, 0])

/-- The array position of entry `(0, r, o)` of point `t`'s output block. -/
abbrev pos (t : Fin cfg0.N) (r : Fin 10000) (o : Fin 64) : S4x50000x64.Idx :=
  ((cfg0.win 3).blk t).view.emb (ix3 (0 : Fin 1) r o)

/-! ## The blocks of ARBITRARY arrays: what a point computes from them is a block of `G` of them -/

section AnyArrays

variable (A : (⟨S4x50000x64, .f32⟩ : BufTy).Contents (Elt Ideal)) (W : (⟨S64x64, .f32⟩ : BufTy).Contents (Elt Ideal))
  (B : (⟨S64, .f32⟩ : BufTy).Contents (Elt Ideal))

/-- Row `r`, column `k` of the rows' block is the array at the output position's slice and row. -/
theorem read_rows (t : Fin cfg0.N) (r : Fin 10000) (o k : Fin 64) :
    ((cfg0.win 0).blk t).view.read (Elt Ideal) A (ix3 (0 : Fin 1) r k) = A (ix3 (pos t r o 0) (pos t r o 1) k) := by
  show A (((cfg0.win 0).blk t).view.emb (ix3 (0 : Fin 1) r k)) = _
  refine congrArg A (funext fun a => Fin.ext ?_)
  obtain ⟨e0, e1, e2, -⟩ := idx_facts t
  match a with
  | ⟨0, _⟩ => show win0_0.index t (0 : Fin 3) * 1 + 1 * (0 : Fin 1).val = win0_3.index t (0 : Fin 3) * 1 + 1 * (0 : Fin 1).val; omega
  | ⟨1, _⟩ => show win0_0.index t (1 : Fin 3) * 10000 + 1 * r.val = win0_3.index t (1 : Fin 3) * 10000 + 1 * r.val; omega
  | ⟨2, _⟩ => show win0_0.index t (2 : Fin 3) * 64 + 1 * k.val = k.val; omega

/-- Entry `(k, o)` of the weights' block is the matrix at `(k, column of the output position)`. -/
theorem read_weights (t : Fin cfg0.N) (r : Fin 10000) (o k : Fin 64) :
    ((cfg0.win 1).blk t).view.read (Elt Ideal) W (ix2 k o) = W (ix2 k (pos t r o 2)) := by
  show W (((cfg0.win 1).blk t).view.emb (ix2 k o)) = _
  refine congrArg W (funext fun a => Fin.ext ?_)
  obtain ⟨-, -, -, e3, e4, e5, -⟩ := idx_facts t
  match a with
  | ⟨0, _⟩ => show win0_1.index t (0 : Fin 2) * 64 + 1 * k.val = k.val; omega
  | ⟨1, _⟩ => show win0_1.index t (1 : Fin 2) * 64 + 1 * o.val = win0_3.index t (2 : Fin 3) * 64 + 1 * o.val; omega

/-- Entry `o` of the bias block is the row at the output position's column. -/
theorem read_bias (t : Fin cfg0.N) (r : Fin 10000) (o : Fin 64) :
    ((cfg0.win 2).blk t).view.read (Elt Ideal) B (ix1 o) = B (ix1 (pos t r o 2)) := by
  show B (((cfg0.win 2).blk t).view.emb (ix1 o)) = _
  refine congrArg B (funext fun a => Fin.ext ?_)
  obtain ⟨-, -, -, e3, -, -, e6⟩ := idx_facts t
  match a with
  | ⟨0, _⟩ => show win0_2.index t (0 : Fin 1) * 64 + 1 * o.val = win0_3.index t (2 : Fin 3) * 64 + 1 * o.val; omega

/-- The body's payload of point `t`'s three input blocks, cut to the output window, is block `t` of `G A W B`. -/
theorem block_eq (t : Fin cfg0.N) :
    (cfg0.win 3).cut (grid0.coords t)
        (k0_pay1 (F := Ideal) (((cfg0.win 0).blk t).view.read (Elt Ideal) A) (((cfg0.win 1).blk t).view.read (Elt Ideal) W)
          (((cfg0.win 2).blk t).view.read (Elt Ideal) B))
      = ((cfg0.win 3).blk t).view.read (Elt Ideal) (G A W B) := by
  funext j
  obtain ⟨p, r, o, rfl⟩ : ∃ (p : Fin 1) (r : Fin 10000) (o : Fin 64), j = ix3 p r o := ⟨j 0, j 1, j 2, eq_ix3 j⟩
  obtain rfl : p = 0 := Subsingleton.elim _ _
  show k0_pay1 (F := Ideal) (((cfg0.win 0).blk t).view.read (Elt Ideal) A) (((cfg0.win 1).blk t).view.read (Elt Ideal) W)
      (((cfg0.win 2).blk t).view.read (Elt Ideal) B) (ix3 (0 : Fin 1) r o)
    = elu ((∑ k : Fin 64, A (ix3 (pos t r o 0) (pos t r o 1) k) * W (ix2 k (pos t r o 2))) + B (ix1 (pos t r o 2)))
  exact (Block.pay_entry _ _ _ r o).trans (congrArg elu
    (congrArg₂ (· + ·)
      (Finset.sum_congr rfl fun k _ => congrArg₂ (· * ·) (read_rows A t r o k) (read_weights W t r o k))
      (read_bias B t r o)))

end AnyArrays

/-! ## What a point writes back, and the whole array -/

/-- WHAT POINT `t` WRITES BACK is block `t` of `G` of the arrays the tiled call reads. -/
theorem flushed_eq (c : Dev nD) (t : Fin cfg0.N) :
    (dats m 0 c).flushed 3 t
      = ((cfg0.win 3).blk t).view.read (Elt Ideal) (G (V m c main_v14) (V m c main_arg2) (V m c main_arg3)) := by
  rw [flushed3]
  unfold out0_3
  rw [View.canon_unit_zero hz3]
  simp only [View.ld_unit_zero (S := S1x10000x64) hz3, View.ld_unit_zero (S := S64x64) hz2, View.ld_unit_zero (S := S64) hz1]
  exact block_eq (V m c main_v14) (V m c main_arg2) (V m c main_arg3) t

/-- An index of the result is in point `t`'s block iff each coordinate is in the block's range on its axis. -/
theorem mem_blk (t : Fin cfg0.N) (i : S4x50000x64.Idx) :
    i ∈ ((cfg0.win 3).blk t).view.set ↔ ∀ a : Fin 3, win0_3.index t a * S1x10000x64.size a ≤ (i a).val
      ∧ (i a).val < win0_3.index t a * S1x10000x64.size a + S1x10000x64.size a := by
  show i ∈ ((View.whole main_v15).slice (win0_3.rect t)).set ↔ _
  rw [View.set_slice_whole, Rect.mem_set_unit]
  exact Iff.rfl

/-- The blocks tile the result: index `(b, i, o)` lies in the block of the point at slice `b`, row block `i / 10000`. -/
theorem cover (i : S4x50000x64.Idx) :
    ∃ t : Fin cfg0.N, (cfg0.win 3).flush t = true ∧ i ∈ ((cfg0.win 3).blk t).view.set := by
  have hi0 : (i 0).val < 4 := (i 0).isLt
  have hi1 : (i 1).val < 50000 := (i 1).isLt
  have hi2 : (i 2).val < 64 := (i 2).isLt
  obtain ⟨t, ht⟩ := idx_onto ⟨(i 0).val, hi0⟩ ⟨(i 1).val / 10000, by omega⟩
  have q0 : win0_3.index t (0 : Fin 3) = (i 0).val := congrFun ht 0
  have q1 : win0_3.index t (1 : Fin 3) = (i 1).val / 10000 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 10000 ≤ (i 1).val ∧ (i 1).val < win0_3.index t (1 : Fin 3) * 10000 + 10000; omega
  | ⟨2, _⟩ => show win0_3.index t (2 : Fin 3) * 64 ≤ (i 2).val ∧ (i 2).val < win0_3.index t (2 : Fin 3) * 64 + 64; omega

/-- THE RESULT ARRAY after the run, in terms of what the tiled call reads. -/
theorem final (c : Dev nD) :
    (dats m 0 c).arrAt 3 cfg0.N = G (V m c main_v14) (V m c main_arg2) (V m c main_arg3) :=
  (dats m 0 c).arrAt_eq_of_cover 3 (G (V m c main_v14) (V m c main_arg2) (V m c main_arg3))
    (fun t _ => flushed_eq m c t) cover

/-- THE KERNEL'S RUN: the result array is `G` of the aggregated features, the weights and the bias as launched; the
    arguments are unchanged. -/
theorem run : θ_run defs (onTc (τ := τ) (main (F := Ideal))) ⟨m, fun _ => 0, ρ⟩ fun r => ∀ c : Dev nD,
      r.2.mem ((c : Thread nD τ).loc main_v15)
        = G (agg (m ((c : Thread nD τ).loc main_arg0)) (m ((c : Thread nD τ).loc main_arg1))
              (m ((c : Thread nD τ).loc main_arg4)) (m ((c : Thread nD τ).loc main_arg5)))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans
      (G_congr (V_agg m c) (V_main_arg2 m c) (V_main_arg3 m c))), (h c).2⟩)
    (Value.run_blocks m ρ)

end Cert.KernelIdeal.Dense

end
-- ==== Proof.RefRun.lean ====
/-
  The reference's run, read back. The reference is a straight line of host operations: the aggregation (the same
  chain the kernel's program applies before its tiled call: wrap the column indices, gather, scale, scatter-add,
  batch axis first), one contraction of the aggregated array's last axis with the weight matrix's first, the bias
  row broadcast over batch and rows and added, and the activation, which the library function spells as a call
  with two nested selections: compare with zero (twice), guard the argument to zero where it is positive, apply
  `exp · − 1`, multiply by one, select. Here the calls are listed inline, each operation over the call's own
  buffers, so that the whole program is one list of thirty-seven operations; its run ends with the result buffer at
  the operations' composed term of the launch contents, `activate (affine (agg x vals rows cols) w β)`, and the
  arguments unchanged.
-/
import proofs.«158166_j39479339384913_1_alg».proof.Proof.Gen.ReferenceIdeal
import Idealize.ShloMosaic.Lib.StableHlo.Run

noncomputable section

namespace Cert.ReferenceIdeal.Dense

open Cert.ReferenceIdeal Cert.ReferenceIdeal.Gen Idealize.ShloMosaic Idealize.ShloMosaic.TcCoe Idealize.SL.Sem
open Idealize.ShloMosaic.StableHlo

variable {F : FTy → Type} [FloatOps F]

/-- The activation's argument: the buffer of the affine part, as a typed reference. -/
abbrev y18 : TRef sig ⟨S4x50000x64, .f32⟩ := .of main_v18

/-- The program's thirty-seven operations in order, the calls unfolded: twenty-two of its own, then the
    activation's fifteen (seven of its own, the guard's three, three more, the final selection). -/
abbrev ops : List (HloOp τ sig (Elt F)) :=
  [
    nullary main_c (constantI S_ 32 0#32),
    unary main_c main_v0 (broadcastInDim S850000 ![] bcast_S_S850000 : (⟨S_, .i32⟩ : BufTy).Contents (Elt F) → (⟨S850000, .i32⟩ : BufTy).Contents (Elt F)),
    binary main_arg5 main_v0 main_v1 (cmpi .slt : (⟨S850000, .i32⟩ : BufTy).Contents (Elt F) → (⟨S850000, .i32⟩ : BufTy).Contents (Elt F) → (⟨S850000, .i1⟩ : BufTy).Contents (Elt F)),
    nullary main_c_0 (constantI S_ 32 50000#32),
    unary main_c_0 main_v2 (broadcastInDim S850000 ![] bcast_S_S850000 : (⟨S_, .i32⟩ : BufTy).Contents (Elt F) → (⟨S850000, .i32⟩ : BufTy).Contents (Elt F)),
    binary main_arg5 main_v2 main_v3 (addi : (⟨S850000, .i32⟩ : BufTy).Contents (Elt F) → (⟨S850000, .i32⟩ : BufTy).Contents (Elt F) → (⟨S850000, .i32⟩ : BufTy).Contents (Elt F)),
    ternary main_v1 main_v3 main_arg5 main_v4 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v4 main_v5 (broadcastInDim S850000x1 ![0] bcast_S850000_S850000x1_0 : (⟨S850000, .i32⟩ : BufTy).Contents (Elt F) → (⟨S850000x1, .i32⟩ : BufTy).Contents (Elt F)),
    binary main_arg0 main_v5 main_v6 ((fun x i => Host.gather gather_S4x50000x64_S850000x1_S4x850000x64_02_1_n_n_1_1_4164 x i) : (⟨S4x50000x64, .f32⟩ : BufTy).Contents (Elt F) → (⟨S850000x1, .i32⟩ : BufTy).Contents (Elt F) → (⟨S4x850000x64, .f32⟩ : BufTy).Contents (Elt F)),
    unary main_arg1 main_v7 (broadcastInDim S1x850000x1 ![1] bcast_S850000_S1x850000x1_1 : (⟨S850000, .f32⟩ : BufTy).Contents (Elt F) → (⟨S1x850000x1, .f32⟩ : BufTy).Contents (Elt F)),
    unary main_v7 main_v8 (broadcastInDim S4x850000x64 ![0, 1, 2] bcast_S1x850000x1_S4x850000x64_0_1_2 : (⟨S1x850000x1, .f32⟩ : BufTy).Contents (Elt F) → (⟨S4x850000x64, .f32⟩ : BufTy).Contents (Elt F)),
    binary main_v6 main_v8 main_v9 (mulf : (⟨S4x850000x64, .f32⟩ : BufTy).Contents (Elt F) → (⟨S4x850000x64, .f32⟩ : BufTy).Contents (Elt F) → (⟨S4x850000x64, .f32⟩ : BufTy).Contents (Elt F)),
    unary main_v9 main_v10 ((transpose S850000x4x64 [1, 0, 2] · transposes_S4x850000x64_S850000x4x64_1_0_2) : (⟨S4x850000x64, .f32⟩ : BufTy).Contents (Elt F) → (⟨S850000x4x64, .f32⟩ : BufTy).Contents (Elt F)),
    nullary main_cst (constant S_ .f32 0x00000000#32),
    unary main_cst main_v11 (broadcastInDim S50000x4x64 ![] bcast_S_S50000x4x64 : (⟨S_, .f32⟩ : BufTy).Contents (Elt F) → (⟨S50000x4x64, .f32⟩ : BufTy).Contents (Elt F)),
    unary main_arg4 main_v12 (broadcastInDim S850000x1 ![0] bcast_S850000_S850000x1_0 : (⟨S850000, .i32⟩ : BufTy).Contents (Elt F) → (⟨S850000x1, .i32⟩ : BufTy).Contents (Elt F)),
    ternary main_v11 main_v12 main_v10 main_v13 ((fun x i u => Host.scatterAdd scatter_S50000x4x64_S850000x1_S850000x4x64_12_0_0_1 x i u) : (⟨S50000x4x64, .f32⟩ : BufTy).Contents (Elt F) → (⟨S850000x1, .i32⟩ : BufTy).Contents (Elt F) → (⟨S850000x4x64, .f32⟩ : BufTy).Contents (Elt F) → (⟨S50000x4x64, .f32⟩ : BufTy).Contents (Elt F)),
    unary main_v13 main_v14 ((transpose S4x50000x64 [1, 0, 2] · transposes_S50000x4x64_S4x50000x64_1_0_2) : (⟨S50000x4x64, .f32⟩ : BufTy).Contents (Elt F) → (⟨S4x50000x64, .f32⟩ : BufTy).Contents (Elt F)),
    binary main_v14 main_arg2 main_v15 ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)),
    unary main_arg3 main_v16 (broadcastInDim S1x1x64 ![2] bcast_S64_S1x1x64_2 : (⟨S64, .f32⟩ : BufTy).Contents (Elt F) → (⟨S1x1x64, .f32⟩ : BufTy).Contents (Elt F)),
    unary main_v16 main_v17 (broadcastInDim S4x50000x64 ![0, 1, 2] bcast_S1x1x64_S4x50000x64_0_1_2 : (⟨S1x1x64, .f32⟩ : BufTy).Contents (Elt F) → (⟨S4x50000x64, .f32⟩ : BufTy).Contents (Elt F)),
    binary main_v15 main_v17 main_v18 (addf : (⟨S4x50000x64, .f32⟩ : BufTy).Contents (Elt F) → (⟨S4x50000x64, .f32⟩ : BufTy).Contents (Elt F) → (⟨S4x50000x64, .f32⟩ : BufTy).Contents (Elt F)),
    TRef.nullary main_call0.cst (constant S_ .f32 0x00000000#32),
    TRef.unary main_call0.cst main_call0.v0 (broadcastInDim S4x50000x64 ![] bcast_S_S4x50000x64),
    TRef.binary y18 main_call0.v0 main_call0.v1 (cmpf .ogt),
    TRef.nullary main_call0.cst_0 (constant S_ .f32 0x00000000#32),
    TRef.unary main_call0.cst_0 main_call0.v2 (broadcastInDim S4x50000x64 ![] bcast_S_S4x50000x64),
    TRef.binary y18 main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S4x50000x64 ![] bcast_S_S4x50000x64),
    TRef.ternary main_call0.v3 main_call0.call0.v1 y18 main_call0.call0.v2 select,
    TRef.unary main_call0.call0.v2 main_call0.v5 Host.expm1,
    TRef.nullary main_call0.cst_2 (constant S_ .f32 0x3F800000#32),
    TRef.unary main_call0.cst_2 main_call0.v6 (broadcastInDim S4x50000x64 ![] bcast_S_S4x50000x64),
    TRef.binary main_call0.v6 main_call0.v5 main_call0.v7 mulf,
    TRef.ternary main_call0.v1 y18 main_call0.v7 main_call0.call1.v0 select ]

set_option maxRecDepth 4096 in
/-- The program is that straight line: the functions' definitions unfolded at their calls, sequencing reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-! ## The composed term, in three steps -/

/-- Wrap the column indices, gather, scale by the edge values, scatter-add by the row indices, batch axis first. -/
def agg (x : (⟨S4x50000x64, .f32⟩ : BufTy).Contents (Elt F))
    (vals : (⟨S850000, .f32⟩ : BufTy).Contents (Elt F)) (rows cols : (⟨S850000, .i32⟩ : BufTy).Contents (Elt F)) :
    (⟨S4x50000x64, .f32⟩ : BufTy).Contents (Elt F) :=
  transpose S4x50000x64 [1, 0, 2]
    (Host.scatterAdd scatter_S50000x4x64_S850000x1_S850000x4x64_12_0_0_1
      (broadcastInDim S50000x4x64 ![] bcast_S_S50000x4x64 (constant S_ .f32 0x00000000#32))
      (broadcastInDim S850000x1 ![0] bcast_S850000_S850000x1_0 rows)
      (transpose S850000x4x64 [1, 0, 2]
        (mulf
          (Host.gather gather_S4x50000x64_S850000x1_S4x850000x64_02_1_n_n_1_1_4164 x
            (broadcastInDim S850000x1 ![0] bcast_S850000_S850000x1_0
              (select (cmpi .slt cols (broadcastInDim S850000 ![] bcast_S_S850000 (constantI S_ 32 0#32)))
                (addi cols (broadcastInDim S850000 ![] bcast_S_S850000 (constantI S_ 32 50000#32))) cols)))
          (broadcastInDim S4x850000x64 ![0, 1, 2] bcast_S1x850000x1_S4x850000x64_0_1_2
            (broadcastInDim S1x850000x1 ![1] bcast_S850000_S1x850000x1_1 vals)))
        transposes_S4x850000x64_S850000x4x64_1_0_2))
    transposes_S50000x4x64_S4x50000x64_1_0_2

/-- Contract the last axis with the weights' first, add the bias row broadcast over batch and rows. -/
def affine (a : (⟨S4x50000x64, .f32⟩ : BufTy).Contents (Elt F)) (w : (⟨S64x64, .f32⟩ : BufTy).Contents (Elt F))
    (β : (⟨S64, .f32⟩ : BufTy).Contents (Elt F)) : (⟨S4x50000x64, .f32⟩ : BufTy).Contents (Elt F) :=
  addf (Host.dotGeneral dot_S4x50000x64_S64x64_S4x50000x64_2_0_01_1_n_n none a w)
    (broadcastInDim S4x50000x64 ![0, 1, 2] bcast_S1x1x64_S4x50000x64_0_1_2 (broadcastInDim S1x1x64 ![2] bcast_S64_S1x1x64_2 β))

/-- The activation as the library function spells it. -/
def activate (y : (⟨S4x50000x64, .f32⟩ : BufTy).Contents (Elt F)) : (⟨S4x50000x64, .f32⟩ : BufTy).Contents (Elt F) :=
  select (cmpf .ogt y (broadcastInDim S4x50000x64 ![] bcast_S_S4x50000x64 (constant S_ .f32 0x00000000#32))) y
    (mulf (broadcastInDim S4x50000x64 ![] bcast_S_S4x50000x64 (constant S_ .f32 0x3F800000#32))
      (Host.expm1 (select (cmpf .ogt y (broadcastInDim S4x50000x64 ![] bcast_S_S4x50000x64 (constant S_ .f32 0x00000000#32)))
        (broadcastInDim S4x50000x64 ![] bcast_S_S4x50000x64 (id (constant S_ .f32 0x00000000#32))) y)))

/-- THE REFERENCE'S RUN: every weakly fair execution terminates with the result at the composed term of the launch
    contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
        = activate (affine (agg (m ((c.tc : Thread nD τ).loc main_arg0)) (m ((c.tc : Thread nD τ).loc main_arg1)) (m ((c.tc : Thread nD τ).loc main_arg4)) (m ((c.tc : Thread nD τ).loc main_arg5)))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v19).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.Dense

end
-- ==== Proof.RefValue.lean ====
/-
  The reference's composed term is `G`, entry by entry, on the extended reals.

  The contraction of the aggregated array's last axis with the weight matrix's first, read at `(b, n, o)`, is the
  sum over `k < 64` of `a (b, n, k) · w (k, o)`: the contraction's one-axis index set is identified with `Fin 64`,
  and the operand indices at output entry `(b, n, o)` and contraction position `k` are `(b, n, k)` and `(k, o)`,
  axis by axis. The bias row, lifted to `[1, 1, 64]` and broadcast over batch and rows, reads `β o` there. A
  broadcast scalar reads the scalar. So the affine part at `(b, n, o)` is `∑ k, a (b, n, k) · w (k, o) + β o`, and
  the library's spelling of the activation at that value is `elu` of it (the guarded form).
-/
import proofs.«158166_j39479339384913_1_alg».proof.Proof.RefRun
import proofs.«158166_j39479339384913_1_alg».proof.Proof.DenseElu
import Idealize.ShloMosaic.Lib.Pipeline.Value
import Idealize.ShloMosaic.Lib.ValueIdx
import Idealize.ShloMosaic.PureOps.Ideal.Laws

noncomputable section

open scoped BigOperators

namespace Cert.ReferenceIdeal.Dense

open Cert.ReferenceIdeal Cert.ReferenceIdeal.Gen Idealize.ShloMosaic Idealize.ShloMosaic.ValueIdx Cert.DenseElu

/-! ## The contraction's operand indices, axis by axis -/

/-- The left operand's batch slice is the output entry's. -/
theorem lhs_axis0 (i : S4x50000x64.Idx) (q : dot_S4x50000x64_S64x64_S4x50000x64_2_0_01_1_n_n.contr.Idx) :
    (dot_S4x50000x64_S64x64_S4x50000x64_2_0_01_1_n_n.lhsIdx i q 0).val = (i 0).val := by
  unfold DotDims.lhsIdx
  rw [dif_neg (show ¬(0 : Fin S4x50000x64.rank) ∈ dot_S4x50000x64_S64x64_S4x50000x64_2_0_01_1_n_n.lhsBatch by decide),
    dif_pos (show (0 : Fin S4x50000x64.rank) ∈ dot_S4x50000x64_S64x64_S4x50000x64_2_0_01_1_n_n.lhsNonContracting by decide)]
  rfl

/-- The left operand's row is the output entry's. -/
theorem lhs_axis1 (i : S4x50000x64.Idx) (q : dot_S4x50000x64_S64x64_S4x50000x64_2_0_01_1_n_n.contr.Idx) :
    (dot_S4x50000x64_S64x64_S4x50000x64_2_0_01_1_n_n.lhsIdx i q 1).val = (i 1).val := by
  unfold DotDims.lhsIdx
  rw [dif_neg (show ¬(1 : Fin S4x50000x64.rank) ∈ dot_S4x50000x64_S64x64_S4x50000x64_2_0_01_1_n_n.lhsBatch by decide),
    dif_pos (show (1 : Fin S4x50000x64.rank) ∈ dot_S4x50000x64_S64x64_S4x50000x64_2_0_01_1_n_n.lhsNonContracting by decide)]
  rfl

/-- The left operand's last coordinate is the contraction position. -/
theorem lhs_axis2 (i : S4x50000x64.Idx) (q : dot_S4x50000x64_S64x64_S4x50000x64_2_0_01_1_n_n.contr.Idx) :
    (dot_S4x50000x64_S64x64_S4x50000x64_2_0_01_1_n_n.lhsIdx i q 2).val = (q ⟨0, by decide⟩).val :=
  dot_S4x50000x64_S64x64_S4x50000x64_2_0_01_1_n_n.lhsIdx_val_of_single rfl i q

/-- The right operand's row is the contraction position. -/
theorem rhs_axis0 (i : S4x50000x64.Idx) (q : dot_S4x50000x64_S64x64_S4x50000x64_2_0_01_1_n_n.contr.Idx) :
    (dot_S4x50000x64_S64x64_S4x50000x64_2_0_01_1_n_n.rhsIdx i q 0).val = (q ⟨0, by decide⟩).val :=
  dot_S4x50000x64_S64x64_S4x50000x64_2_0_01_1_n_n.rhsIdx_val_of_single rfl i q

/-- The right operand's column is the output entry's last coordinate. -/
theorem rhs_axis1 (i : S4x50000x64.Idx) (q : dot_S4x50000x64_S64x64_S4x50000x64_2_0_01_1_n_n.contr.Idx) :
    (dot_S4x50000x64_S64x64_S4x50000x64_2_0_01_1_n_n.rhsIdx i q 1).val = (i 2).val := by
  unfold DotDims.rhsIdx
  rw [dif_neg (show ¬(1 : Fin S64x64.rank) ∈ dot_S4x50000x64_S64x64_S4x50000x64_2_0_01_1_n_n.rhsBatch by decide),
    dif_pos (show (1 : Fin S64x64.rank) ∈ dot_S4x50000x64_S64x64_S4x50000x64_2_0_01_1_n_n.rhsNonContracting by decide)]
  rfl

/-- The contraction at entry `(b, n, o)`: the sum over the shared axis. -/
theorem dot_entry (a : FVec Ideal S4x50000x64 .f32) (w : FVec Ideal S64x64 .f32) (b : Fin 4) (n : Fin 50000) (o : Fin 64) :
    Host.dotGeneral dot_S4x50000x64_S64x64_S4x50000x64_2_0_01_1_n_n none a w (ix3 b n o) = ∑ k : Fin 64, a (ix3 b n k) * w (ix2 k o) := by
  simp only [Host.dotGeneral]
  rw [Ideal.dotGeneral_apply, ← Equiv.sum_comp (contrEquiv1 dot_S4x50000x64_S64x64_S4x50000x64_2_0_01_1_n_n 64 rfl rfl).symm]
  refine Finset.sum_congr rfl fun k _ => ?_
  have hk := contrEquiv1_symm_val dot_S4x50000x64_S64x64_S4x50000x64_2_0_01_1_n_n 64 rfl rfl k
  have el : dot_S4x50000x64_S64x64_S4x50000x64_2_0_01_1_n_n.lhsIdx (ix3 b n o) ((contrEquiv1 dot_S4x50000x64_S64x64_S4x50000x64_2_0_01_1_n_n 64 rfl rfl).symm k) = ix3 b n k :=
    funext fun d => Fin.ext (by
      match d with
      | ⟨0, _⟩ => exact lhs_axis0 _ _
      | ⟨1, _⟩ => exact lhs_axis1 _ _
      | ⟨2, _⟩ => exact (lhs_axis2 _ _).trans hk)
  have er : dot_S4x50000x64_S64x64_S4x50000x64_2_0_01_1_n_n.rhsIdx (ix3 b n o) ((contrEquiv1 dot_S4x50000x64_S64x64_S4x50000x64_2_0_01_1_n_n 64 rfl rfl).symm k) = ix2 k o :=
    funext fun d => Fin.ext (by
      match d with
      | ⟨0, _⟩ => exact (rhs_axis0 _ _).trans hk
      | ⟨1, _⟩ => exact rhs_axis1 _ _)
  rw [el, er]

/-! ## The broadcasts, read at an entry -/

/-- The bias row lifted to `[1, 1, 64]` and broadcast over batch and rows: entry `(b, n, o)` is `β o`. -/
theorem bias_entry (β : FVec Ideal S64 .f32) (b : Fin 4) (n : Fin 50000) (o : Fin 64) :
    broadcastInDim S4x50000x64 ![0, 1, 2] bcast_S1x1x64_S4x50000x64_0_1_2
      (broadcastInDim S1x1x64 ![2] bcast_S64_S1x1x64_2 β) (ix3 b n o) = β (ix1 o) :=
  (broadcastInDim_apply ![0, 1, 2] bcast_S1x1x64_S4x50000x64_0_1_2 (broadcastInDim S1x1x64 ![2] bcast_S64_S1x1x64_2 β)
    (ix3 b n o) (ix3 (0 : Fin 1) (0 : Fin 1) o) (fun d => by
      match d with
      | ⟨0, _⟩ => rfl
      | ⟨1, _⟩ => rfl
      | ⟨2, _⟩ => rfl)).trans
    (broadcastInDim_apply ![2] bcast_S64_S1x1x64_2 β (ix3 (0 : Fin 1) (0 : Fin 1) o) (ix1 o) (fun d => by
      match d with
      | ⟨0, _⟩ => rfl))

/-- A scalar broadcast to the whole array reads the scalar everywhere. -/
theorem splat_entry (s : FVec Ideal S_ .f32) (i : S4x50000x64.Idx) :
    broadcastInDim S4x50000x64 ![] bcast_S_S4x50000x64 s i = s ix0 :=
  broadcastInDim_apply ![] bcast_S_S4x50000x64 s i ix0 (fun d => d.elim0)

/-! ## The composed term is `G` -/

/-- The affine part at entry `(b, n, o)`. -/
theorem affine_entry (a : FVec Ideal S4x50000x64 .f32) (w : FVec Ideal S64x64 .f32) (β : FVec Ideal S64 .f32)
    (b : Fin 4) (n : Fin 50000) (o : Fin 64) :
    affine (F := Ideal) a w β (ix3 b n o) = (∑ k : Fin 64, a (ix3 b n k) * w (ix2 k o)) + β (ix1 o) := by
  unfold affine
  rw [addf_apply, dot_entry, bias_entry]

/-- The library's spelling of the activation, read at an entry, is `elu` of the entry: the two broadcast scalars
    read `0` and `1`, and the guarded form is `elu`. -/
theorem activate_entry (y : FVec Ideal S4x50000x64 .f32) (i : S4x50000x64.Idx) :
    activate (F := Ideal) y i = elu (y i) := by
  have hZ : broadcastInDim S4x50000x64 ![] bcast_S_S4x50000x64 (constant (F := Ideal) S_ .f32 0x00000000#32) i = Ideal.ofBits .f32 0x00000000#32 := splat_entry _ i
  have hO : broadcastInDim S4x50000x64 ![] bcast_S_S4x50000x64 (constant (F := Ideal) S_ .f32 0x3F800000#32) i = Ideal.ofBits .f32 0x3F800000#32 := splat_entry _ i
  show Scalar.select (FloatOps.cmpf .ogt (y i) (broadcastInDim S4x50000x64 ![] bcast_S_S4x50000x64 (constant (F := Ideal) S_ .f32 0x00000000#32) i)) (y i)
      (broadcastInDim S4x50000x64 ![] bcast_S_S4x50000x64 (constant (F := Ideal) S_ .f32 0x3F800000#32) i * FloatOps.hostUnary .expm1
        (Scalar.select (FloatOps.cmpf .ogt (y i) (broadcastInDim S4x50000x64 ![] bcast_S_S4x50000x64 (constant (F := Ideal) S_ .f32 0x00000000#32) i)) (broadcastInDim S4x50000x64 ![] bcast_S_S4x50000x64 (constant (F := Ideal) S_ .f32 0x00000000#32) i) (y i))) = elu (y i)
  rw [hZ, hO]
  exact elu_of_expm1 _

/-- THE REFERENCE'S VALUE: its composed term is the layer `G` of the aggregated features, the weights and the bias. -/
theorem activate_affine (a : FVec Ideal S4x50000x64 .f32) (w : FVec Ideal S64x64 .f32) (β : FVec Ideal S64 .f32) :
    activate (F := Ideal) (affine (F := Ideal) a w β) = G a w β := by
  funext i
  obtain ⟨b, n, o, rfl⟩ : ∃ (b : Fin 4) (n : Fin 50000) (o : Fin 64), i = ix3 b n o := ⟨i 0, i 1, i 2, eq_ix3 i⟩
  refine (activate_entry _ _).trans ?_
  rw [affine_entry]
  rfl

end Cert.ReferenceIdeal.Dense

end
-- ==== Proof.lean ====
/-
  A graph-convolution layer against its reference, over the extended reals.

  Both programs first aggregate neighbour features on the host with the same chain of operations (wrap the column
  indices, gather the rows they name, scale by the edge values, add into the rows the row indices name), giving
  `a = agg x vals rows cols : [4, 50000, 64]`. The kernel then walks a 4 × 5 grid of blocks of ten thousand rows and,
  per block, multiplies by the weights into a zero accumulator, adds the bias row and applies
  `y ↦ (y > 0 ? y : exp y − 1)`; the reference contracts the whole array with the weights at once, adds the bias
  broadcast over batch and rows, and applies the library's ELU, `y ↦ (y > 0 ? y : 1 · (exp (y > 0 ? 0 : y) − 1))`.
  Entry by entry both are

      G a w β (b, n, o) = elu (∑ k < 64, a (b, n, k) · w (k, o) + β o):

  a block's row against a column of the weights is the whole array's row against the same column, the narrowing of
  the product's operands is the identity on the extended reals, the blocks tile the result, and the two spellings of
  the activation agree by a case split on the comparison bit. Nothing here needs the inputs to be finite, and the
  aggregation is never opened: it is the same function of the same arrays on both sides.

  The kernel's frames are the generated ones; the reference's frame is its run with the result dropped; the
  idealization rewrote nothing, so there is nothing to preserve.
-/
import proofs.«158166_j39479339384913_1_alg».proof.Defs
import proofs.«158166_j39479339384913_1_alg».proof.Proof.Gen.Kernel
import proofs.«158166_j39479339384913_1_alg».proof.Proof.Gen.Kernel.Frame
import proofs.«158166_j39479339384913_1_alg».proof.Proof.Gen.KernelIdeal
import proofs.«158166_j39479339384913_1_alg».proof.Proof.Gen.KernelIdeal.Frame
import proofs.«158166_j39479339384913_1_alg».proof.Proof.Gen.ReferenceIdeal
import proofs.«158166_j39479339384913_1_alg».proof.Proof.Gen.Pre_finite_inputs
import proofs.«158166_j39479339384913_1_alg».proof.Proof.DenseElu
import proofs.«158166_j39479339384913_1_alg».proof.Proof.KernelValue
import proofs.«158166_j39479339384913_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Dense.run (F := Ideal) m ρ)

theorem preserves : Cert.preserves_Kernel_KernelIdeal := trivial

/-- The two programs' aggregations are one function: the same operations with the same dimension numbers. -/
theorem agg_eq (x : (⟨Cert.KernelIdeal.S4x50000x64, .f32⟩ : BufTy).Contents (Elt Ideal))
    (vals : (⟨Cert.KernelIdeal.S850000, .f32⟩ : BufTy).Contents (Elt Ideal))
    (rows cols : (⟨Cert.KernelIdeal.S850000, .i32⟩ : BufTy).Contents (Elt Ideal)) :
    Cert.ReferenceIdeal.Dense.agg (F := Ideal) x vals rows cols = Cert.KernelIdeal.Dense.agg (F := Ideal) x vals rows cols := rfl

/-- From memories that agree on the arguments the kernel's result array is `G (agg …) w β` (the blocks' payloads
    tiled) and the reference's composed term is `G` of the same arrays. -/
theorem algebraic : Cert.algebraic_KernelIdeal_ReferenceIdeal := by
  intro m ρ m' ρ' _ hagree
  refine ⟨_, Cert.KernelIdeal.Dense.run m ρ, ?_⟩
  refine (θ_run Cert.ReferenceIdeal.defs _ _).mono (fun _ h c => ⟨(h c).1.trans ?_, (h c).2⟩)
    (Cert.ReferenceIdeal.Dense.run (F := Ideal) m' ρ')
  obtain ⟨h0, h1, h2, h3, h4, h5⟩ := hagree c
  rw [h0, h1, h2, h3, h4, h5]
  exact (Cert.ReferenceIdeal.Dense.activate_affine _ _ _).trans
    (Cert.DenseElu.G_congr (agg_eq _ _ _ _) rfl rfl)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
